-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S50000x128 : Shape := ⟨2, ![50000, 128]⟩
abbrev S2000x512 : Shape := ⟨2, ![2000, 512]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 26
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S512x128, .bf16⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S_, .f32⟩
  | .hbm, ⟨25, _⟩ => ⟨S50000x128, .f32⟩
  | .hbm, ⟨26, _⟩ => ⟨S50000x128, .i1⟩
  | .hbm, ⟨27, _⟩ => ⟨S_, .f32⟩
  | .hbm, ⟨28, _⟩ => ⟨S50000x128, .f32⟩
  | .hbm, ⟨29, _⟩ => ⟨S50000x128, .i1⟩
  | .hbm, ⟨30, _⟩ => ⟨S_, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst_0 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_cst_1 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Selu.lean ====
/-
  SELU on the extended reals, in the two spellings the programs use, and that they are one function.
  With z the zero pattern, σ and α the two f32 constants: the kernel computes
      σ · (if v > z then v else α · (exp (min v z) − one))        with `one` the pattern of 1.0,
  the reference
      σ · (if v > z then v else α · (exp (if v > z then z else v) − 1)).
  In a linear order `min v z` is `z` where `v > z` and `v` elsewhere, and the pattern of 1.0 denotes 1.
-/
import Idealize.ShloMosaic.PureOps.Ideal
import Idealize.ShloMosaic.PureOps.Ideal.Laws

noncomputable section

namespace Cert.Selu

open Idealize.ShloMosaic

/-- The f32 pattern of 1.0 denotes the real number 1. -/
theorem ofBits_one : Ideal.ofBits .f32 0x3F800000#32 = 1 := by
  simp [Ideal.ofBits, Ideal.ieee, -EReal.coe_mul]; norm_num

/-- The smaller of `v` and `z` is `z` where `v` exceeds `z`, and `v` elsewhere. -/
theorem min_eq_select (v z : EReal) : min v z = Scalar.select (Ideal.cmp .ogt v z) z v := by
  unfold Scalar.select Ideal.cmp
  by_cases h : z < v
  · simp [h, min_eq_right (le_of_lt h)]
  · simp [h, min_eq_left (not_lt.mp h)]

/-- SELU as the kernel spells it: the exponential of the value clamped from above by zero, less the pattern of one. -/
def viaMin (v : EReal) : EReal :=
  Ideal.ofBits .f32 0x3F867D5F#32 * Scalar.select (Ideal.cmp .ogt v (Ideal.ofBits .f32 0x00000000#32)) v
    (Ideal.ofBits .f32 0x3FD62D7D#32 * (Ideal.exp (min v (Ideal.ofBits .f32 0x00000000#32)) - Ideal.ofBits .f32 0x3F800000#32))

/-- SELU as the reference spells it: `expm1`, which is `exp − 1` on the extended reals, of the value selected against zero. -/
def viaSelect (v : EReal) : EReal :=
  Ideal.ofBits .f32 0x3F867D5F#32 * Scalar.select (Ideal.cmp .ogt v (Ideal.ofBits .f32 0x00000000#32)) v
    (Ideal.ofBits .f32 0x3FD62D7D#32 * (Ideal.exp (Scalar.select (Ideal.cmp .ogt v (Ideal.ofBits .f32 0x00000000#32)) (Ideal.ofBits .f32 0x00000000#32) v) - 1))

/-- The two spellings agree at every extended real. -/
theorem viaMin_eq_viaSelect (v : EReal) : viaMin v = viaSelect v := by
  unfold viaMin viaSelect
  rw [ofBits_one, min_eq_select]

end Cert.Selu

end
-- ==== Proof.KBlocks.lean ====
/-
  What each kernel body stores, read at one index of its block, on the extended reals.
  The first body stores the product of its row block of `x` (cast to bf16: the identity on extended reals) with the whole
  weight matrix into a zero accumulator: entry (r, c) is the sum over k of x(r, k) · w(k, c).
  The second body stores SELU of its row block entry by entry (the spelling through `min`), plus the bias row's entry of
  the same column.
-/
import proofs.«429947_j83786222010494_3_alg».proof.Proof.Gen.KernelIdeal.Skeleton
import proofs.«429947_j83786222010494_3_alg».proof.Proof.Selu
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen
open Idealize.ShloMosaic Idealize.ShloMosaic.TcCoe Idealize.SL.Sem Idealize.ShloMosaic.ValueIdx

/-! ## The matrix product's block -/

/-- The left operand's index for output entry `i` and contraction position `k`: row of `i`, column `k`. -/
abbrev lrow (i : S2000x128.Idx) (k : Fin 512) : S2000x512.Idx := fun a => match a with
  | ⟨0, _⟩ => ⟨(i 0).val, (i 0).isLt⟩
  | ⟨1, _⟩ => ⟨k.val, k.isLt⟩

/-- The right operand's index: row `k`, column of `i`. -/
abbrev rcol (i : S2000x128.Idx) (k : Fin 512) : S512x128.Idx := fun a => match a with
  | ⟨0, _⟩ => ⟨k.val, k.isLt⟩
  | ⟨1, _⟩ => ⟨(i 1).val, (i 1).isLt⟩

theorem lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry `i` of what the first body stores: the sum over the 512 contraction positions of its row of the left block
    times its column of the right block. -/
theorem prod_apply (x0 : Vec Ideal S2000x512 .f32) (x1 : Vec Ideal S512x128 .bf16) (i : S2000x128.Idx) :
    k0_pay1 (F := Ideal) x0 x1 i = ∑ k : Fin 512, x0 (lrow i k) * x1 (rcol i k) := by
  unfold k0_pay1
  simp only [shapeCast_self, matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx i ((contrEquiv1 dot_S2000x512_S512x128_S2000x128_1_0_0_1_n_n 512 rfl rfl).symm k) = lrow i k := funext fun a => Fin.ext (by
    match a with
    | ⟨0, _⟩ => exact lhs_0 _ _
    | ⟨1, _⟩ => exact (lhs_1 _ _).trans hk)
  have er : dot_S2000x512_S512x128_S2000x128_1_0_0_1_n_n.rhsIdx i ((contrEquiv1 dot_S2000x512_S512x128_S2000x128_1_0_0_1_n_n 512 rfl rfl).symm k) = rcol i k := funext fun a => Fin.ext (by
    match a with
    | ⟨0, _⟩ => exact (rhs_0 _ _).trans hk
    | ⟨1, _⟩ => exact rhs_1 _ _)
  rw [el, er]
  rfl

/-! ## SELU plus bias's block -/

/-- The bias row's index under entry `i`: row 0, column of `i`. -/
abbrev brow (i : S5000x128.Idx) : S1x128.Idx := fun a => match a with
  | ⟨0, _⟩ => ⟨0, Nat.zero_lt_one⟩
  | ⟨1, _⟩ => ⟨(i 1).val, (i 1).isLt⟩

/-- Entry `i` of what the second body stores: SELU (through `min`) of the block's entry plus the bias row's entry of
    its column. -/
theorem selu_apply (x0 : Vec Ideal S5000x128 .f32) (x14 : Vec Ideal S1x128 .f32) (i : S5000x128.Idx) :
    k1_pay1 (F := Ideal) x0 x14 i = Cert.Selu.viaMin (x0 i) + x14 (brow i) := by
  unfold k1_pay1
  simp only [shapeCast_self]
  rw [addf_apply, broadcastTo_apply x14 broadcasts_S1x128_S5000x128 i (brow i) (fun a => by
    match a with
    | ⟨0, _⟩ => rfl
    | ⟨1, _⟩ => rfl)]
  rfl

end Cert.KernelIdeal.Blocks

end
-- ==== Proof.KRegions.lean ====
/-
  Each pallas_call's output array as ONE function of the arrays the region finds, index by index, on the extended reals.
  Region 0 (25 points, a block of 2000 rows each): the array ends at the whole product, entry (r, c) the sum over k of
  x(r, k) · w(k, c) with w the bf16 weight array the host made. Region 1 (10 points, 5000 rows each): the array ends at
  SELU of the aggregated array entry by entry plus the bias row's entry of the column. In both, point t reads and writes
  rows [t · rows, (t + 1) · rows) of every column, the second operand is one whole block, and the output's blocks tile
  the array: row r is in point r / rows's block.
-/
import proofs.«429947_j83786222010494_3_alg».proof.Proof.Gen.KernelIdeal.Frame
import proofs.«429947_j83786222010494_3_alg».proof.Proof.KBlocks

set_option maxRecDepth 16384

noncomputable section

namespace Cert.KernelIdeal.Regions

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the product -/

/-- The arrays region 0 finds, and its two input blocks at a point, at their literal types. -/
abbrev xarr (c : Dev nD) : FVec Ideal S50000x512 .f32 := V c main_arg0
abbrev warr (c : Dev nD) : FVec Ideal S512x128 .bf16 := V c main_v0
abbrev xblk (c : Dev nD) (t : Fin cfg0.N) : FVec Ideal S2000x512 .f32 := iblk0 V c 0 t
abbrev wblk (c : Dev nD) (t : Fin cfg0.N) : FVec Ideal S512x128 .bf16 := iblk0 V c 1 t

/-- Row of `i`, column `k` of the left array; row `k`, column of `i` of the right. -/
abbrev xrow (i : S50000x128.Idx) (k : Fin 512) : S50000x512.Idx := fun a => match a with
  | ⟨0, _⟩ => ⟨(i 0).val, (i 0).isLt⟩
  | ⟨1, _⟩ => ⟨k.val, k.isLt⟩
abbrev wcol (i : S50000x128.Idx) (k : Fin 512) : S512x128.Idx := fun a => match a with
  | ⟨0, _⟩ => ⟨k.val, k.isLt⟩
  | ⟨1, _⟩ => ⟨(i 1).val, (i 1).isLt⟩

/-- The whole product: entry `i` is the sum over `k` of the left array's (row of i, k) times the right's (k, column of i). -/
def prodAll (X : FVec Ideal S50000x512 .f32) (W : FVec Ideal S512x128 .bf16) : FVec Ideal S50000x128 .f32 :=
  fun i => ∑ k : Fin 512, X (xrow i k) * W (wcol i k)

/-- The printed index maps over the 25 points: the row windows are at block row t, the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t` is rows 2000·t … of the array. -/
theorem xblk_apply (c : Dev nD) (t : Fin cfg0.N) (y : S2000x512.Idx) (z : S50000x512.Idx)
    (h0 : (z 0).val = 2000 * t.val + (y 0).val) (h1 : (z 1).val = (y 1).val) : xblk V c t y = xarr V c z := by
  obtain ⟨e0, e1, -, -, -, -⟩ := idx_facts0 t
  unfold xblk iblk0
  rw [View.read_apply]
  show V c main_arg0 _ = V c main_arg0 _
  congr 1
  funext a
  apply Fin.ext
  match a with
  | ⟨0, _⟩ => show win0_0.index t (0 : Fin 2) * 2000 + 1 * (y 0).val = (z 0).val; omega
  | ⟨1, _⟩ => show win0_0.index t (1 : Fin 2) * 512 + 1 * (y 1).val = (z 1).val; omega

/-- The right block at every point is the whole weight array. -/
theorem wblk_apply (c : Dev nD) (t : Fin cfg0.N) (y : S512x128.Idx) (z : S512x128.Idx)
    (h0 : (z 0).val = (y 0).val) (h1 : (z 1).val = (y 1).val) : wblk V c t y = warr V c z := by
  obtain ⟨-, -, e2, e3, -, -⟩ := idx_facts0 t
  unfold wblk iblk0
  rw [View.read_apply]
  show V c main_v0 _ = V c main_v0 _
  congr 1
  funext a
  apply Fin.ext
  match a with
  | ⟨0, _⟩ => show win0_1.index t (0 : Fin 2) * 512 + 1 * (y 0).val = (z 0).val; omega
  | ⟨1, _⟩ => show win0_1.index t (1 : Fin 2) * 128 + 1 * (y 1).val = (z 1).val; omega

/-- What point `t` writes back is block `t` of the whole product of the arrays the region finds. -/
theorem flushed0_eq (c : Dev nD) (t : Fin cfg0.N) :
    (dat0 V c).flushed 2 t = ((cfg0.win 2).blk t).view.read (Elt Ideal) (prodAll (xarr V c) (warr V c)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨-, -, -, -, e4, e5⟩ := idx_facts0 t
  funext j
  rw [View.read_apply]
  show k0_pay1 (xblk V c t) (wblk V c t) j = prodAll (xarr V c) (warr V c) (((cfg0.win 2).blk t).view.emb j)
  rw [prod_apply]
  unfold prodAll
  refine Finset.sum_congr rfl fun k _ => ?_
  have r0 : ((((cfg0.win 2).blk t).view.emb j) 0).val = win0_2.index t (0 : Fin 2) * 2000 + 1 * (j 0).val := rfl
  have r1 : ((((cfg0.win 2).blk t).view.emb j) 1).val = win0_2.index t (1 : Fin 2) * 128 + 1 * (j 1).val := rfl
  rw [xblk_apply V c t (lrow j k) (xrow (((cfg0.win 2).blk t).view.emb j) k) (by show _ = 2000 * t.val + (j 0).val; rw [r0]; omega) rfl,
    wblk_apply V c t (rcol j k) (wcol (((cfg0.win 2).blk t).view.emb j) k) rfl (by show _ = (j 1).val; rw [r1]; omega)]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v1).slice (win0_2.rect t)).set ↔ _
  rw [View.set_slice_whole, Rect.mem_set_unit]
  exact Iff.rfl

/-- Every index is in some point's block: row r in point r / 2000's. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [show cfg0.N = 25 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- Region 0's output array after its run: the whole product of the arrays it found. -/
theorem final0 (c : Dev nD) : (dat0 V c).arrAt 2 cfg0.N = prodAll (xarr V c) (warr V c) :=
  (dat0 V c).arrAt_eq_of_cover 2 (prodAll (xarr V c) (warr V c)) (fun t _ => flushed0_eq V c t) cover0

/-! ## Region 1: SELU plus bias -/

/-- The arrays region 1 finds, and its two input blocks at a point, at their literal types. -/
abbrev aarr (c : Dev nD) : FVec Ideal S50000x128 .f32 := V c main_v14
abbrev barr (c : Dev nD) : FVec Ideal S1x128 .f32 := V c main_v15
abbrev ablk (c : Dev nD) (t : Fin cfg1.N) : FVec Ideal S5000x128 .f32 := iblk1 V c 0 t
abbrev bblk (c : Dev nD) (t : Fin cfg1.N) : FVec Ideal S1x128 .f32 := iblk1 V c 1 t

/-- The bias row's index under entry `i` of the whole array: row 0, column of `i`. -/
abbrev bcol (i : S50000x128.Idx) : S1x128.Idx := fun a => match a with
  | ⟨0, _⟩ => ⟨0, Nat.zero_lt_one⟩
  | ⟨1, _⟩ => ⟨(i 1).val, (i 1).isLt⟩

/-- SELU (through `min`) of every entry plus the bias row's entry of its column. -/
def seluAll (A : FVec Ideal S50000x128 .f32) (B : FVec Ideal S1x128 .f32) : FVec Ideal S50000x128 .f32 :=
  fun i => Cert.Selu.viaMin (A i) + B (bcol i)

/-- The printed index maps over the 10 points: the row windows are at block row t, the bias window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t` is rows 5000·t … of the aggregated array. -/
theorem ablk_apply (c : Dev nD) (t : Fin cfg1.N) (y : S5000x128.Idx) (z : S50000x128.Idx)
    (h0 : (z 0).val = 5000 * t.val + (y 0).val) (h1 : (z 1).val = (y 1).val) : ablk V c t y = aarr V c z := by
  obtain ⟨e0, e1, -, -, -, -⟩ := idx_facts1 t
  unfold ablk iblk1
  rw [View.read_apply]
  show V c main_v14 _ = V c main_v14 _
  congr 1
  funext a
  apply Fin.ext
  match a with
  | ⟨0, _⟩ => show win1_0.index t (0 : Fin 2) * 5000 + 1 * (y 0).val = (z 0).val; omega
  | ⟨1, _⟩ => show win1_0.index t (1 : Fin 2) * 128 + 1 * (y 1).val = (z 1).val; omega

/-- The bias block at every point is the whole bias row. -/
theorem bblk_apply (c : Dev nD) (t : Fin cfg1.N) (y : S1x128.Idx) (z : S1x128.Idx)
    (h0 : (z 0).val = (y 0).val) (h1 : (z 1).val = (y 1).val) : bblk V c t y = barr V c z := by
  obtain ⟨-, -, e2, e3, -, -⟩ := idx_facts1 t
  unfold bblk iblk1
  rw [View.read_apply]
  show V c main_v15 _ = V c main_v15 _
  congr 1
  funext a
  apply Fin.ext
  match a with
  | ⟨0, _⟩ => show win1_1.index t (0 : Fin 2) * 1 + 1 * (y 0).val = (z 0).val; omega
  | ⟨1, _⟩ => show win1_1.index t (1 : Fin 2) * 128 + 1 * (y 1).val = (z 1).val; omega

/-- What point `t` writes back is block `t` of SELU-plus-bias of the arrays the region finds. -/
theorem flushed1_eq (c : Dev nD) (t : Fin cfg1.N) :
    (dat1 V c).flushed 2 t = ((cfg1.win 2).blk t).view.read (Elt Ideal) (seluAll (aarr V c) (barr V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx_facts1 t
  funext j
  rw [View.read_apply]
  show k1_pay1 (ablk V c t) (bblk V c t) j = seluAll (aarr V c) (barr V c) (((cfg1.win 2).blk t).view.emb j)
  rw [selu_apply]
  unfold seluAll
  have r0 : ((((cfg1.win 2).blk t).view.emb j) 0).val = win1_2.index t (0 : Fin 2) * 5000 + 1 * (j 0).val := rfl
  have r1 : ((((cfg1.win 2).blk t).view.emb j) 1).val = win1_2.index t (1 : Fin 2) * 128 + 1 * (j 1).val := rfl
  rw [ablk_apply V c t j (((cfg1.win 2).blk t).view.emb j) (by rw [r0]; omega) (by rw [r1]; omega),
    bblk_apply V c t (brow j) (bcol (((cfg1.win 2).blk t).view.emb j)) rfl (by show _ = (j 1).val; rw [r1]; omega)]

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v16).slice (win1_2.rect t)).set ↔ _
  rw [View.set_slice_whole, Rect.mem_set_unit]
  exact Iff.rfl

/-- Every index is in some point's block: row r in point r / 5000's. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Region 1's output array after its run: SELU-plus-bias of the arrays it found. -/
theorem final1 (c : Dev nD) : (dat1 V c).arrAt 2 cfg1.N = seluAll (aarr V c) (barr V c) :=
  (dat1 V c).arrAt_eq_of_cover 2 (seluAll (aarr V c) (barr V c)) (fun t _ => flushed1_eq V c t) cover1

end Cert.KernelIdeal.Regions

end
-- ==== Proof.KValue.lean ====
/-
  The kernel program's result as ONE function of its six arguments, on the extended reals, read through the run's
  boundaries: the result buffer is region 1's output array, SELU-plus-bias of the aggregated array and the reshaped bias;
  the aggregated array is the host's gather, scale and scatter-add of region 0's output array, the whole product of `x`
  with the weights cast to bf16 by the host; the index and value arguments reach those operations as launched.
-/
import proofs.«429947_j83786222010494_3_alg».proof.Proof.KRun
import proofs.«429947_j83786222010494_3_alg».proof.Proof.KRegions
import Idealize.ShloMosaic.Lib.StableHlo.Run

set_option maxRecDepth 16384

noncomputable section

namespace Cert.KernelIdeal.Whole

open Cert.KernelIdeal Cert.KernelIdeal.Gen Cert.KernelIdeal.Regions
open Idealize.ShloMosaic Idealize.ShloMosaic.TcCoe Idealize.SL.Sem Idealize.ShloMosaic.StableHlo

/-- The host's middle: rows of `s` gathered at the column indices (a negative index wrapped by the row count first), each
    scaled by its edge value, and scatter-added into zeros at the row indices. -/
def agg {F : FTy → Type} [FloatOps F] (s : (⟨S50000x128, .f32⟩ : BufTy).Contents (Elt F)) (row col : (⟨S800000, .i32⟩ : BufTy).Contents (Elt F)) (val : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 val))
      (Host.gather gather_S50000x128_S800000x1_S800000x128_1_0_n_n_0_1_1128 s
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The kernel program's result: SELU-plus-bias of the aggregated rows of the product of `x` with the bf16 weights. -/
def kerOut (x : (⟨S50000x512, .f32⟩ : BufTy).Contents (Elt Ideal)) (row col : (⟨S800000, .i32⟩ : BufTy).Contents (Elt Ideal)) (val : (⟨S800000, .f32⟩ : BufTy).Contents (Elt Ideal))
    (w : (⟨S512x128, .f32⟩ : BufTy).Contents (Elt Ideal)) (b : (⟨S128, .f32⟩ : BufTy).Contents (Elt Ideal)) : (⟨S50000x128, .f32⟩ : BufTy).Contents (Elt Ideal) :=
  seluAll (agg (F := Ideal) (prodAll x (truncf (F := Ideal) .bf16 w bitsLt_bf16_f32)) row col val) (shapeCast S1x128 b shapeCasts_S128_S1x128)

variable (m : (ℓ : Loc nD τ sig) → Buf (Elt Ideal) ℓ) (ρ : Dev nD → PrngReg)

/-! ## The arguments and the weights at region 0's entry and exit -/

/-- Region 0 finds `x` as launched: the one host operation before it writes the bf16 weights only. -/
theorem V1_arg0 (c : Dev nD) : (V1 m ρ c main_arg0 : FVec Ideal S50000x512 .f32) = m ((c : Thread nD τ).loc main_arg0) := by
  show StableHlo.after hostOps0 (W0 m ρ c) (Proc.devRef .tc main_arg0) = _
  after_results
  try rfl

/-- Region 0 finds the weights cast to bf16. -/
theorem V1_v0 (c : Dev nD) : (V1 m ρ c main_v0 : FVec Ideal S512x128 .bf16) = truncf (F := Ideal) .bf16 (m ((c : Thread nD τ).loc main_arg4)) bitsLt_bf16_f32 := by
  show StableHlo.after hostOps0 (W0 m ρ c) (Proc.devRef .tc main_v0) = _
  after_results
  try rfl

/-- Argument 1 is neither written by a host operation before region 0 nor one of its arrays: region 0 leaves it as launched. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results
    try rfl)

/-- Argument 2 is neither written by a host operation before region 0 nor one of its arrays: region 0 leaves it as launched. -/
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results
    try rfl)

/-- Argument 3 is neither written by a host operation before region 0 nor one of its arrays: region 0 leaves it as launched. -/
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results
    try rfl)

/-- Argument 5 is neither written by a host operation before region 0 nor one of its arrays: region 0 leaves it as launched. -/
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results
    try rfl)

/-- Region 0 leaves its output array at the whole product of `x` with the bf16 weights. -/
theorem W2_v1 (c : Dev nD) : (W2 m ρ c (Proc.devRef .tc main_v1) : FVec Ideal S50000x128 .f32)
    = prodAll (m ((c : Thread nD τ).loc main_arg0)) (truncf (F := Ideal) .bf16 (m ((c : Thread nD τ).loc main_arg4)) bitsLt_bf16_f32) :=
  (W2_arr m ρ c 2).trans ((final0 (V1 m ρ) c).trans (by
    show prodAll (V1 m ρ c main_arg0) (V1 m ρ c main_v0) = _
    rw [V1_arg0, V1_v0]))

/-! ## Region 1's entry -/

attribute [local irreducible] Host.gather Host.scatterAdd in
/-- Region 1 finds, as its first operand, the host's aggregate of what region 0 left. -/
theorem V3_v14 (c : Dev nD) : (V3 m ρ c main_v14 : FVec Ideal S50000x128 .f32)
    = agg (F := Ideal) (W2 m ρ c (Proc.devRef .tc main_v1)) (W2 m ρ c (Proc.devRef .tc main_arg1)) (W2 m ρ c (Proc.devRef .tc main_arg2)) (W2 m ρ c (Proc.devRef .tc main_arg3)) := by
  show StableHlo.after hostOps1 (W2 m ρ c) (Proc.devRef .tc main_v14) = _
  after_results
  try rfl

/-- and, as its second, the bias reshaped to one row. -/
theorem V3_v15 (c : Dev nD) : (V3 m ρ c main_v15 : FVec Ideal S1x128 .f32) = shapeCast S1x128 (W2 m ρ c (Proc.devRef .tc main_arg5)) shapeCasts_S128_S1x128 := by
  show StableHlo.after hostOps1 (W2 m ρ c) (Proc.devRef .tc main_v15) = _
  after_results
  try rfl

/-! ## The result -/

/-- The last boundary's contents of the result buffer are `kerOut` of the arguments as launched. -/
theorem result_eq (c : Dev nD) : (W4 m ρ c (Proc.devRef .tc main_v16) : FVec Ideal S50000x128 .f32)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 2).trans ((final1 (V3 m ρ) c).trans ?_)
  show seluAll (V3 m ρ c main_v14) (V3 m ρ c main_v15) = _
  rw [V3_v14, V3_v15, W2_v1, W2_arg1, W2_arg2, W2_arg3, W2_arg5]
  rfl

/-- The run, read: the result array at `kerOut` of the arguments' launch contents, the arguments unchanged. -/
theorem run : θ_run defs (onTc (τ := τ) (main (F := Ideal))) ⟨m, fun _ => 0, ρ⟩ (fun r => ∀ c : Dev nD,
      r.2.mem ((c.tc : Thread nD τ).loc main_v16) = kerOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_result m ρ)

end Cert.KernelIdeal.Whole

end
-- ==== Proof.RefStraight.lean ====
/-
  The reference program's @main read as a straight line of host operations: `jax.nn.selu` and the functions it calls
  (`elu`, the two `where`s) are written out at their call sites over the buffers each call names, in execution order.
  Every weakly fair execution then terminates with each buffer at the fold of the operations' results over the launch
  contents; the result buffer's fold is named `refOut`, a pure function of the six argument arrays.
-/
import proofs.«429947_j83786222010494_3_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's 39 operations in execution order: the matrix product, the gather of its rows at the wrapped column
    indices scaled by the edge values, the scatter-add into zeros at the row indices, SELU's operations, the bias added. -/
abbrev ops : List (HloOp τ sig (Elt F)) :=
  [ binary main_arg0 main_arg4 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg3 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg2 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg2 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg2 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v1 main_v9 (broadcastInDim S800000x128 ![0, 1] bcast_S800000x1_S800000x128_0_1 : (⟨S800000x1, .f32⟩ : BufTy).Contents (Elt F) → (⟨S800000x128, .f32⟩ : BufTy).Contents (Elt F)),
    binary main_v9 main_v8 main_v10 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_arg1 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S50000x128 ![] bcast_S_S50000x128),
    TRef.binary (.of main_v13) main_call0.call0.v0 main_call0.call0.v1 (cmpf .ogt),
    TRef.nullary main_call0.call0.cst_0 (constant S_ .f32 0x00000000#32),
    TRef.unary main_call0.call0.cst_0 main_call0.call0.v2 (broadcastInDim S50000x128 ![] bcast_S_S50000x128),
    TRef.binary (.of main_v13) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S50000x128 ![] bcast_S_S50000x128),
    TRef.ternary main_call0.call0.v3 main_call0.call0.call0.v1 (.of main_v13) main_call0.call0.call0.v2 select,
    TRef.unary main_call0.call0.call0.v2 main_call0.call0.v5 Host.expm1,
    TRef.unary main_call0.cst main_call0.call0.v6 id,
    TRef.unary main_call0.call0.v6 main_call0.call0.v7 (broadcastInDim S50000x128 ![] bcast_S_S50000x128),
    TRef.binary main_call0.call0.v7 main_call0.call0.v5 main_call0.call0.v8 mulf,
    TRef.ternary main_call0.call0.v1 (.of main_v13) main_call0.call0.v8 main_call0.call0.call1.v0 select,
    TRef.nullary main_call0.cst_0 (constant S_ .f32 0x3F867D5F#32),
    TRef.unary main_call0.cst_0 main_call0.v1 (broadcastInDim S50000x128 ![] bcast_S_S50000x128),
    TRef.binary main_call0.v1 main_call0.call0.call1.v0 main_call0.v2 mulf,
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)) ]

set_option maxRecDepth 2048 in
/-- @main is that straight line: the called functions' bodies unfolded at their calls, the sequencing reassociated. -/
theorem main_eq (c : Dev nD) : main (F := F) c = seq ops := by
  simp only [main, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., unary_bufs_sub .., binary_bufs_sub ..⟩

/-- Every weakly fair execution of @main terminates, nothing faulting, with each buffer at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as a function of the arguments -/

/-- The shared middle of both programs: rows of `s` gathered at the column indices (a negative index wrapped by the
    row count first), each scaled by its edge value, and scatter-added into zeros at the row indices. -/
def agg (s : (⟨S50000x128, .f32⟩ : BufTy).Contents (Elt F)) (row col : (⟨S800000, .i32⟩ : BufTy).Contents (Elt F)) (val : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 val))
      (Host.gather gather_S50000x128_S800000x1_S800000x128_1_0_n_n_0_1_1128 s
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- `jax.nn.selu` as the host computes it: σ · (if a > 0 then a else α · expm1 (if a > 0 then 0 else a)), elementwise. -/
def seluHost (a : (⟨S50000x128, .f32⟩ : BufTy).Contents (Elt F)) : (⟨S50000x128, .f32⟩ : BufTy).Contents (Elt F) :=
  mulf (broadcastInDim S50000x128 ![] bcast_S_S50000x128 (constant S_ .f32 0x3F867D5F#32))
    (select (cmpf .ogt a (broadcastInDim S50000x128 ![] bcast_S_S50000x128 (constant S_ .f32 0x00000000#32))) a
      (mulf (broadcastInDim S50000x128 ![] bcast_S_S50000x128 (constant S_ .f32 0x3FD62D7D#32))
        (Host.expm1 (select (cmpf .ogt a (broadcastInDim S50000x128 ![] bcast_S_S50000x128 (constant S_ .f32 0x00000000#32)))
          (broadcastInDim S50000x128 ![] bcast_S_S50000x128 (constant S_ .f32 0x00000000#32)) a))))

/-- The reference's result: SELU of the aggregated rows of `x · w`, the bias added along the columns. -/
def refOut (x : (⟨S50000x512, .f32⟩ : BufTy).Contents (Elt F)) (row col : (⟨S800000, .i32⟩ : BufTy).Contents (Elt F)) (val : (⟨S800000, .f32⟩ : BufTy).Contents (Elt F))
    (w : (⟨S512x128, .f32⟩ : BufTy).Contents (Elt F)) (b : (⟨S128, .f32⟩ : BufTy).Contents (Elt F)) : (⟨S50000x128, .f32⟩ : BufTy).Contents (Elt F) :=
  addf (seluHost (agg (Host.dotGeneral dot_S50000x512_S512x128_S50000x128_1_0_0_1_n_n none x w) row col val))
    (broadcastInDim S50000x128 ![0, 1] bcast_S1x128_S50000x128_0_1 (broadcastInDim S1x128 ![1] bcast_S128_S1x128_1 b))

attribute [local irreducible] Host.gather Host.scatterAdd Host.expm1 in
set_option maxRecDepth 8192 in
/-- The fold at the result buffer is `refOut` of the argument buffers' contents: each operation's result read at its own
    buffer, the typed references' transports the identity at these literal references. -/
theorem out_eq (V : Valuation τ sig (Elt F)) :
    after ops V (main_v17 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- The run, read: the result array at `refOut` of the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v17).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _)⟩)
    (run_fold m ρ)

end Cert.ReferenceIdeal.Straight

end
-- ==== Proof.Bridge.lean ====
/-
  The two results are one function of the six arguments on the extended reals.
  (1) The kernel's whole product, entry (r, c) the sum over k of x(r, k) · w(k, c) with the weights cast to bf16 (the
      identity on extended reals), is the reference's `dot_general` of `x` and `w`: the same sum, re-indexed from the
      contraction shape's one coordinate to k.
  (2) The gather, scale and scatter-add between the two kernels is the reference's, operation for operation.
  (3) SELU through `min` is SELU through the selection (module Selu), entry by entry.
  (4) The bias reshaped to one row and read at (0, column) is the bias broadcast along the rows: both are b(column).
-/
import proofs.«429947_j83786222010494_3_alg».proof.Proof.KValue
import proofs.«429947_j83786222010494_3_alg».proof.Proof.RefStraight

noncomputable section

namespace Cert.Bridge

open Idealize.ShloMosaic Idealize.ShloMosaic.TcCoe Idealize.SL.Sem Idealize.ShloMosaic.ValueIdx
open Cert.KernelIdeal.Regions (prodAll seluAll xrow wcol bcol)

abbrev SO : Shape := Cert.ReferenceIdeal.S50000x128
abbrev SX : Shape := Cert.ReferenceIdeal.S50000x512
abbrev SW : Shape := Cert.ReferenceIdeal.S512x128

/-! ## (1) The product -/

theorem lhs_0 (i : SO.Idx) (q : Cert.ReferenceIdeal.dot_S50000x512_S512x128_S50000x128_1_0_0_1_n_n.contr.Idx) : (Cert.ReferenceIdeal.dot_S50000x512_S512x128_S50000x128_1_0_0_1_n_n.lhsIdx i q 0).val = (i 0).val := by
  unfold DotDims.lhsIdx
  rw [dif_neg (show ¬(0 : Fin SX.rank) ∈ Cert.ReferenceIdeal.dot_S50000x512_S512x128_S50000x128_1_0_0_1_n_n.lhsBatch by decide), dif_pos (show (0 : Fin SX.rank) ∈ Cert.ReferenceIdeal.dot_S50000x512_S512x128_S50000x128_1_0_0_1_n_n.lhsNonContracting by decide)]
  rfl
theorem lhs_1 (i : SO.Idx) (q : Cert.ReferenceIdeal.dot_S50000x512_S512x128_S50000x128_1_0_0_1_n_n.contr.Idx) : (Cert.ReferenceIdeal.dot_S50000x512_S512x128_S50000x128_1_0_0_1_n_n.lhsIdx i q 1).val = (q ⟨0, by decide⟩).val :=
  Cert.ReferenceIdeal.dot_S50000x512_S512x128_S50000x128_1_0_0_1_n_n.lhsIdx_val_of_single rfl i q
theorem rhs_0 (i : SO.Idx) (q : Cert.ReferenceIdeal.dot_S50000x512_S512x128_S50000x128_1_0_0_1_n_n.contr.Idx) : (Cert.ReferenceIdeal.dot_S50000x512_S512x128_S50000x128_1_0_0_1_n_n.rhsIdx i q 0).val = (q ⟨0, by decide⟩).val :=
  Cert.ReferenceIdeal.dot_S50000x512_S512x128_S50000x128_1_0_0_1_n_n.rhsIdx_val_of_single rfl i q
theorem rhs_1 (i : SO.Idx) (q : Cert.ReferenceIdeal.dot_S50000x512_S512x128_S50000x128_1_0_0_1_n_n.contr.Idx) : (Cert.ReferenceIdeal.dot_S50000x512_S512x128_S50000x128_1_0_0_1_n_n.rhsIdx i q 1).val = (i 1).val := by
  unfold DotDims.rhsIdx
  rw [dif_neg (show ¬(1 : Fin SW.rank) ∈ Cert.ReferenceIdeal.dot_S50000x512_S512x128_S50000x128_1_0_0_1_n_n.rhsBatch by decide), dif_pos (show (1 : Fin SW.rank) ∈ Cert.ReferenceIdeal.dot_S50000x512_S512x128_S50000x128_1_0_0_1_n_n.rhsNonContracting by decide)]
  rfl

/-- The reference's `dot_general` is the kernel's whole product of `x` with the bf16 weights. -/
theorem prod_eq (x : FVec Ideal SX .f32) (w : FVec Ideal SW .f32) (h : FTy.bits .bf16 < FTy.bits .f32) :
    Host.dotGeneral (F := Ideal) Cert.ReferenceIdeal.dot_S50000x512_S512x128_S50000x128_1_0_0_1_n_n none x w = prodAll x (truncf (F := Ideal) .bf16 w h) := by
  funext i
  simp only [Host.dotGeneral]
  rw [Ideal.dotGeneral_apply, ← Equiv.sum_comp (contrEquiv1 Cert.ReferenceIdeal.dot_S50000x512_S512x128_S50000x128_1_0_0_1_n_n 512 rfl rfl).symm]
  unfold prodAll
  refine Finset.sum_congr rfl fun k _ => ?_
  have hk := contrEquiv1_symm_val Cert.ReferenceIdeal.dot_S50000x512_S512x128_S50000x128_1_0_0_1_n_n 512 rfl rfl k
  have el : Cert.ReferenceIdeal.dot_S50000x512_S512x128_S50000x128_1_0_0_1_n_n.lhsIdx i ((contrEquiv1 Cert.ReferenceIdeal.dot_S50000x512_S512x128_S50000x128_1_0_0_1_n_n 512 rfl rfl).symm k) = xrow i k := funext fun a => Fin.ext (by
    match a with
    | ⟨0, _⟩ => exact lhs_0 _ _
    | ⟨1, _⟩ => exact (lhs_1 _ _).trans hk)
  have er : Cert.ReferenceIdeal.dot_S50000x512_S512x128_S50000x128_1_0_0_1_n_n.rhsIdx i ((contrEquiv1 Cert.ReferenceIdeal.dot_S50000x512_S512x128_S50000x128_1_0_0_1_n_n 512 rfl rfl).symm k) = wcol i k := funext fun a => Fin.ext (by
    match a with
    | ⟨0, _⟩ => exact (rhs_0 _ _).trans hk
    | ⟨1, _⟩ => exact rhs_1 _ _)
  rw [el, er]
  rfl

/-! ## (2) The shared middle -/

attribute [local irreducible] Host.gather Host.scatterAdd in
/-- The host operations between the two kernels are the reference's: the same operations with the same attributes. -/
theorem agg_eq (s : FVec Ideal SO .f32) (row col : IVec Cert.ReferenceIdeal.S800000 32) (val : FVec Ideal Cert.ReferenceIdeal.S800000 .f32) :
    Cert.KernelIdeal.Whole.agg (F := Ideal) s row col val = Cert.ReferenceIdeal.Straight.agg (F := Ideal) s row col val := by
  unfold Cert.KernelIdeal.Whole.agg Cert.ReferenceIdeal.Straight.agg
  rfl

/-! ## (3) SELU -/

/-- The host's SELU at an entry is the selection spelling of module Selu: `expm1` is `exp − 1` on the extended reals. -/
theorem seluHost_apply (a : FVec Ideal SO .f32) (i : SO.Idx) :
    Cert.ReferenceIdeal.Straight.seluHost (F := Ideal) a i = Cert.Selu.viaSelect (a i) := rfl

/-! ## (4) The bias -/

/-- The bias's index under entry `i`: its column. -/
abbrev bidx (i : SO.Idx) : Cert.ReferenceIdeal.S128.Idx := fun a => match a with
  | ⟨0, _⟩ => ⟨(i 1).val, (i 1).isLt⟩

theorem bias_kernel (b : FVec Ideal Cert.KernelIdeal.S128 .f32) (h : Cert.KernelIdeal.S128.ShapeCasts Cert.KernelIdeal.S1x128) (i : SO.Idx) :
    shapeCast Cert.KernelIdeal.S1x128 b h (bcol i) = b (bidx i) := by
  refine (shapeCast_addUnit_apply ![128] b h (bcol i)).trans (congrArg b ?_)
  funext a
  match a with
  | ⟨0, _⟩ => rfl

theorem bias_reference (b : FVec Ideal Cert.ReferenceIdeal.S128 .f32) (i : SO.Idx) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) i = b (bidx i) := by
  rw [broadcastInDim_apply ![0, 1] _ _ i (bcol i) (fun a => by
    match a with
    | ⟨0, _⟩ => rfl
    | ⟨1, _⟩ => rfl)]
  rw [broadcastInDim_apply ![1] _ b (bcol i) (bidx i) (fun a => by
    match a with
    | ⟨0, _⟩ => rfl)]

/-! ## The two results -/

/-- On the extended reals the kernel program's result and the reference's are the same function of the arguments. -/
theorem out_eq (x : FVec Ideal SX .f32) (row col : IVec Cert.ReferenceIdeal.S800000 32) (val : FVec Ideal Cert.ReferenceIdeal.S800000 .f32)
    (w : FVec Ideal SW .f32) (b : FVec Ideal Cert.ReferenceIdeal.S128 .f32) :
    Cert.ReferenceIdeal.Straight.refOut (F := Ideal) x row col val w b = Cert.KernelIdeal.Whole.kerOut x row col val w b := by
  unfold Cert.ReferenceIdeal.Straight.refOut Cert.KernelIdeal.Whole.kerOut
  rw [prod_eq x w Cert.KernelIdeal.Gen.bitsLt_bf16_f32, agg_eq]
  funext i
  rw [addf_apply, seluHost_apply, bias_reference]
  unfold seluAll
  rw [bias_kernel, Cert.Selu.viaMin_eq_viaSelect]

end Cert.Bridge

end
-- ==== Proof.lean ====
/-
  The certificate's five claims for the graph-convolution kernel against its jnp reference.
  Both programs compute, on the extended reals, SELU(A · (x · w)) + bias, where A · s is spelt as rows of s gathered at
  the edges' column indices, scaled by the edge values and scatter-added at the row indices.
  The kernel program does the product in one pallas_call over 25 row blocks (the operands cast to bf16, the identity on
  extended reals, into a zero accumulator), the gather / scale / scatter-add on the host exactly as the reference does,
  and SELU plus bias in a second pallas_call over 10 row blocks, writing SELU's negative branch as
  α · (exp (min v 0) − 1) where jax.nn.selu has α · expm1 (where (v > 0, 0, v)). The two agree at every extended real:
  `expm1` is `exp − 1` there, and `min v 0` is `0` where `v > 0` and `v` elsewhere.
  The frames of the two kernel programs are the generated ones; the reference's frame is its run as a straight line of
  host operations with the result dropped; no rewrite was applied when the idealized kernel was printed, so `preserves`
  asks nothing; `algebraic` puts the two runs side by side at the common result function.
-/
import proofs.«429947_j83786222010494_3_alg».proof.Defs
import proofs.«429947_j83786222010494_3_alg».proof.Proof.Gen.Kernel
import proofs.«429947_j83786222010494_3_alg».proof.Proof.Gen.Kernel.Frame
import proofs.«429947_j83786222010494_3_alg».proof.Proof.Gen.KernelIdeal
import proofs.«429947_j83786222010494_3_alg».proof.Proof.Gen.KernelIdeal.Frame
import proofs.«429947_j83786222010494_3_alg».proof.Proof.Gen.ReferenceIdeal
import proofs.«429947_j83786222010494_3_alg».proof.Proof.Gen.Pre_finite_inputs
import proofs.«429947_j83786222010494_3_alg».proof.Proof.KValue
import proofs.«429947_j83786222010494_3_alg».proof.Proof.RefStraight
import proofs.«429947_j83786222010494_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs as a straight line of host operations; its arguments end as launched. -/
theorem frame_ri : Cert.frame_ReferenceIdeal := fun m ρ _ =>
  (θ_run Cert.ReferenceIdeal.defs _ _).mono (fun _ h c => (h c).2) (Cert.ReferenceIdeal.Straight.run (F := Ideal) m ρ)

/-- The idealized kernel is the kernel's own text read on the extended reals: no rewrite to account for. -/
theorem preserves : Cert.preserves_Kernel_KernelIdeal := trivial

/-- From memories agreeing on the arguments both programs end with the result array at the kernel program's result
    function of those arguments, which is the reference's (module Bridge). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2.1, (hagree c).2.2.2.1, (hagree c).2.2.2.2.1, (hagree c).2.2.2.2.2]
  exact Cert.Bridge.out_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
